-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000x64 : Shape := ⟨2, ![1250000, 64]⟩
abbrev S1250000 : Shape := ⟨1, ![1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x64 : S_.BroadcastsInDim S1250000x64 (![] : Fin 0 → Fin S1250000x64.rank)
  reducesTo_S1250000x64_S_d0_1 : S1250000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg13 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg9 : FVec F S64 .f32) (main_arg10 : FVec F S64x64 .f32) (main_arg11 : FVec F S64 .f32) (main_arg12 : FVec F S64x32 .f32) (main_arg13 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x32 .f32) (main_arg13 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : FVec F S1250000x64 .f32) (main_arg2 : IVec S1250000 32) (main_arg3 : IVec S1250000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x32 .f32) (main_arg13 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x64 .f32 := Host.absf main_arg1
  let main_cst_0 : FVec F S_ .f32 := constant S_ .f32 0x7F800000#32
  let main_v5 : FVec F S1250000x64 .f32 := broadcastInDim S1250000x64 ![] bcast_S_S1250000x64 main_cst_0
  let main_v6 : IVec S1250000x64 1 := cmpf .olt main_v4 main_v5
  let main_c_1 : IVec S_ 1 := constantI S_ 1 1#1
  let main_v7 : IVec S_ 1 := (fun x v => Host.reduce IntOp.andi x v reducesTo_S1250000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S1250000x64 : Shape := ⟨2, ![1250000, 64]⟩
abbrev S1250000 : Shape := ⟨1, ![1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S10000x64 : Shape := ⟨2, ![10000, 64]⟩
abbrev S1x64 : Shape := ⟨2, ![1, 64]⟩
abbrev S_ : Shape := ⟨0, ![]⟩
abbrev S1250000x1 : Shape := ⟨2, ![1250000, 1]⟩
abbrev S1250000x32 : Shape := ⟨2, ![1250000, 32]⟩
abbrev S5000x64 : Shape := ⟨2, ![5000, 64]⟩
abbrev S5000x32 : Shape := ⟨2, ![5000, 32]⟩
abbrev S1x32 : Shape := ⟨2, ![1, 32]⟩

abbrev nBuf : Space → Nat
  | .hbm => 40
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S1250000x64, .f32⟩
  | .hbm, ⟨2, _⟩ => ⟨S1250000, .i32⟩
  | .hbm, ⟨3, _⟩ => ⟨S1250000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S64x64, .bf16⟩
  | .hbm, ⟨15, _⟩ => ⟨S64x64, .bf16⟩
  | .hbm, ⟨16, _⟩ => ⟨S64x64, .bf16⟩
  | .hbm, ⟨17, _⟩ => ⟨S64x64, .bf16⟩
  | .hbm, ⟨18, _⟩ => ⟨S64x32, .bf16⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1250000, .i32⟩
  | .hbm, ⟨23, _⟩ => ⟨S1250000, .i1⟩
  | .hbm, ⟨24, _⟩ => ⟨S_, .i32⟩
  | .hbm, ⟨25, _⟩ => ⟨S1250000, .i32⟩
  | .hbm, ⟨26, _⟩ => ⟨S1250000, .i32⟩
  | .hbm, ⟨27, _⟩ => ⟨S1250000, .i32⟩
  | .hbm, ⟨28, _⟩ => ⟨S1250000x1, .i32⟩
  | .hbm, ⟨29, _⟩ => ⟨S1250000x64, .f32⟩
  | .hbm, ⟨30, _⟩ => ⟨S_, .i32⟩
  | .hbm, ⟨31, _⟩ => ⟨S1250000, .i32⟩
  | .hbm, ⟨32, _⟩ => ⟨S1250000, .i1⟩
  | .hbm, ⟨33, _⟩ => ⟨S_, .i32⟩
  | .hbm, ⟨34, _⟩ => ⟨S1250000, .i32⟩
  | .hbm, ⟨35, _⟩ => ⟨S1250000, .i32⟩
  | .hbm, ⟨36, _⟩ => ⟨S1250000, .i32⟩
  | .hbm, ⟨37, _⟩ => ⟨S1250000x1, .i32⟩
  | .hbm, ⟨38, _⟩ => ⟨S1250000x64, .f32⟩
  | .hbm, ⟨39, _⟩ => ⟨S1250000x32, .f32⟩
  | .local _ .vmem, ⟨0, _⟩ => ⟨S10000x64, .f32⟩
  | .local _ .vmem, ⟨1, _⟩ => ⟨S10000x64, .f32⟩
  | .local _ .vmem, ⟨2, _⟩ => ⟨S64x64, .bf16⟩
  | .local _ .vmem, ⟨3, _⟩ => ⟨S64, .f32⟩
  | .local _ .vmem, ⟨4, _⟩ => ⟨S64x64, .bf16⟩
  | .local _ .vmem, ⟨5, _⟩ => ⟨S64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .bf16⟩
  | .local _ .vmem, ⟨17, _⟩ => ⟨S64, .f32⟩
  | .local _ .vmem, ⟨18, _⟩ => ⟨S64x64, .bf16⟩
  | .local _ .vmem, ⟨19, _⟩ => ⟨S64, .f32⟩
  | .local _ .vmem, ⟨20, _⟩ => ⟨S64x32, .bf16⟩
  | .local _ .vmem, ⟨21, _⟩ => ⟨S32, .f32⟩
  | .local _ .vmem, ⟨22, _⟩ => ⟨S5000x32, .f32⟩
  | .local _ .vmem, ⟨23, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S_S1250000 : S_.BroadcastsInDim S1250000 (![] : Fin 0 → Fin S1250000.rank)
  bcast_S1250000_S1250000x1_0 : S1250000.BroadcastsInDim S1250000x1 (![0] : Fin 1 → Fin S1250000x1.rank)
  inb_S5000x64_S5000x64_0_0 : ∀ a, (![0, 0] : Fin 2 → Nat) a + S5000x64.size a ≤ S5000x64.size a
  h_S5000x64 : 0 < S5000x64.numel
  broadcasts_S1x64_S5000x64 : S1x64.Broadcasts S5000x64
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  dot_S10000x64_S64x64_S10000x64_1_0_0_1_n_n_wf : DotDims.WF S10000x64 S64x64 S10000x64 [1] [0] [0] [1] [] []
  gather_S100000x64_S1250000x1_S1250000x64_1_0_n_n_0_1_164_wf : GatherDims.WF S100000x64 S1250000x1 S1250000x64 [1] [0] [] [0] [] 1 ![1, 64]
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S1250000x64.size a
  hwx1_0 : ∀ i : grid1.Coords, EltTy.bits .f32 = 32 ∨ (Rect.block (s := S1250000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S1250000x64.size a
  hwx1_1 : ∀ i : grid1.Coords, EltTy.bits .f32 = 32 ∨ (Rect.block (s := S1250000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S1250000x64.size a
  hwx1_2 : ∀ i : grid1.Coords, EltTy.bits .f32 = 32 ∨ (Rect.block (s := S1250000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .bf16 = 32 ∨ (Rect.block (s := S64x64) S64x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .bf16 = 32 ∨ (Rect.block (s := S64x32) S64x32.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32.size a ≤ S32.size a
  hwx1_8 : ∀ i : grid1.Coords, EltTy.bits .f32 = 32 ∨ (Rect.block (s := S32) S32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x32.size a ≤ S1250000x32.size a
  hwx1_9 : ∀ i : grid1.Coords, EltTy.bits .f32 = 32 ∨ (Rect.block (s := S1250000x32) S5000x32.size (cc1_transform_9 i) (hinb1_9 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S10000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v20) S5000x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S1250000x64 : Shape := ⟨2, ![1250000, 64]⟩
abbrev S1250000 : Shape := ⟨1, ![1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x64 : Shape := ⟨2, ![1, 64]⟩
abbrev S_ : Shape := ⟨0, ![]⟩
abbrev S1250000x1 : Shape := ⟨2, ![1250000, 1]⟩
abbrev S1250000x32 : Shape := ⟨2, ![1250000, 32]⟩
abbrev S1x32 : Shape := ⟨2, ![1, 32]⟩

abbrev nBuf : Space → Nat
  | .hbm => 63
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000x64, .f32⟩
  | .hbm, ⟨2, _⟩ => ⟨S1250000, .i32⟩
  | .hbm, ⟨3, _⟩ => ⟨S1250000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S100000x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S100000x64, .f32⟩
  | .hbm, ⟨19, _⟩ => ⟨S1x64, .f32⟩
  | .hbm, ⟨20, _⟩ => ⟨S100000x64, .f32⟩
  | .hbm, ⟨21, _⟩ => ⟨S100000x64, .f32⟩
  | .hbm, ⟨22, _⟩ => ⟨S1250000x64, .f32⟩
  | .hbm, ⟨23, _⟩ => ⟨S1x64, .f32⟩
  | .hbm, ⟨24, _⟩ => ⟨S1250000x64, .f32⟩
  | .hbm, ⟨25, _⟩ => ⟨S1250000x64, .f32⟩
  | .hbm, ⟨26, _⟩ => ⟨S_, .i32⟩
  | .hbm, ⟨27, _⟩ => ⟨S1250000, .i32⟩
  | .hbm, ⟨28, _⟩ => ⟨S1250000, .i1⟩
  | .hbm, ⟨29, _⟩ => ⟨S_, .i32⟩
  | .hbm, ⟨30, _⟩ => ⟨S1250000, .i32⟩
  | .hbm, ⟨31, _⟩ => ⟨S1250000, .i32⟩
  | .hbm, ⟨32, _⟩ => ⟨S1250000, .i32⟩
  | .hbm, ⟨33, _⟩ => ⟨S1250000x1, .i32⟩
  | .hbm, ⟨34, _⟩ => ⟨S1250000x64, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000x64, .f32⟩
  | .hbm, ⟨44, _⟩ => ⟨S1250000x64, .f32⟩
  | .hbm, ⟨45, _⟩ => ⟨S1250000x64, .f32⟩
  | .hbm, ⟨46, _⟩ => ⟨S_, .f32⟩
  | .hbm, ⟨47, _⟩ => ⟨S1250000x64, .f32⟩
  | .hbm, ⟨48, _⟩ => ⟨S1250000x64, .f32⟩
  | .hbm, ⟨49, _⟩ => ⟨S1250000x64, .f32⟩
  | .hbm, ⟨50, _⟩ => ⟨S1x64, .f32⟩
  | .hbm, ⟨51, _⟩ => ⟨S1250000x64, .f32⟩
  | .hbm, ⟨52, _⟩ => ⟨S1250000x64, .f32⟩
  | .hbm, ⟨53, _⟩ => ⟨S_, .f32⟩
  | .hbm, ⟨54, _⟩ => ⟨S1250000x64, .f32⟩
  | .hbm, ⟨55, _⟩ => ⟨S1250000x64, .f32⟩
  | .hbm, ⟨56, _⟩ => ⟨S1250000x32, .f32⟩
  | .hbm, ⟨57, _⟩ => ⟨S1x32, .f32⟩
  | .hbm, ⟨58, _⟩ => ⟨S1250000x32, .f32⟩
  | .hbm, ⟨59, _⟩ => ⟨S1250000x32, .f32⟩
  | .hbm, ⟨60, _⟩ => ⟨S_, .f32⟩
  | .hbm, ⟨61, _⟩ => ⟨S1250000x32, .f32⟩
  | .hbm, ⟨62, _⟩ => ⟨S1250000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_cst : Ref sig .tc := ⟨.hbm, 46, rfl⟩
abbrev main_call0_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_cst : Ref sig .tc := ⟨.hbm, 53, rfl⟩
abbrev main_call1_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call2_cst : Ref sig .tc := ⟨.hbm, 60, rfl⟩
abbrev main_call2_v0 : Ref sig .tc := ⟨.hbm, 61, rfl⟩
abbrev main_v38 : Ref sig .tc := ⟨.hbm, 62, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1250000x64_0_1 : S1x64.BroadcastsInDim S1250000x64 (![0, 1] : Fin 2 → Fin S1250000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x64 : S_.BroadcastsInDim S1250000x64 (![] : Fin 0 → Fin S1250000x64.rank)
  bcast_S32_S1x32_1 : S32.BroadcastsInDim S1x32 (![1] : Fin 1 → Fin S1x32.rank)
  bcast_S1x32_S1250000x32_0_1 : S1x32.BroadcastsInDim S1250000x32 (![0, 1] : Fin 2 → Fin S1250000x32.rank)
  bcast_S_S1250000x32 : S_.BroadcastsInDim S1250000x32 (![] : Fin 0 → Fin S1250000x32.rank)
  dot_S100000x64_S64x64_S100000x64_1_0_0_1_n_n_wf : DotDims.WF S100000x64 S64x64 S100000x64 [1] [0] [0] [1] [] []
  dot_S1250000x64_S64x64_S1250000x64_1_0_0_1_n_n_wf : DotDims.WF S1250000x64 S64x64 S1250000x64 [1] [0] [0] [1] [] []
  gather_S100000x64_S1250000x1_S1250000x64_1_0_n_n_0_1_164_wf : GatherDims.WF S100000x64 S1250000x1 S1250000x64 [1] [0] [] [0] [] 1 ![1, 64]
  dot_S1250000x64_S64x32_S1250000x32_1_0_0_1_n_n_wf : DotDims.WF S1250000x64 S64x32 S1250000x32 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1250000x64_S64x64_S1250000x64_1_0_0_1_n_n : DotDims S1250000x64 S64x64 S1250000x64 where
  lhsContracting := [1]
  rhsContracting := [0]
  lhsNonContracting := [0]
  rhsNonContracting := [1]
  lhsBatch := []
  rhsBatch := []
  wf := dot_S1250000x64_S64x64_S1250000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S1250000x64_S64x32_S1250000x32_1_0_0_1_n_n : DotDims S1250000x64 S64x32 S1250000x32 where
  lhsContracting := [1]
  rhsContracting := [0]
  lhsNonContracting := [0]
  rhsNonContracting := [1]
  lhsBatch := []
  rhsBatch := []
  wf := dot_S1250000x64_S64x32_S1250000x32_1_0_0_1_n_n_wf

class Facts : Prop extends Facts₀ where

variable [Facts]
-- ==== Proof.LibDense.lean ====
/-
  A dense layer over the extended reals, and the forms it takes in a program.

  An array `x` of `a` rows and `n` columns, a weight matrix `w` of `n` rows and `b` columns and a bias `β` of
  `b` entries give the array whose entry (p, q) is `∑ k, x (p, k) * w (k, q) + β q` (`affine`); `relu` takes the
  maximum with the value of the zero pattern, entry by entry. At the ideal values a plain matrix product into a zero
  accumulator plus the bias broadcast down the rows is `affine`, whether the product is the vector unit's (with the bias
  cast to one row first) or the host's (with the bias broadcast in two steps); a change of float format is the
  identity. `rowsFrom o` cuts the rows `o, o + 1, …` out of an array: both `affine` and `relu` act row by row, so they
  commute with it. All for any extents.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibDense

open Idealize.ShloMosaic Idealize.ShloMosaic.ValueIdx

/-! ## The layer -/

/-- Entry (p, q) of rows × weights + bias: `∑ k, x (p, k) * w (k, q) + β q`. -/
def affine {a n b : ℕ} (x : (⟨2, ![a, n]⟩ : Shape).Idx → EReal) (w : (⟨2, ![n, b]⟩ : Shape).Idx → EReal)
    (β : (⟨1, ![b]⟩ : Shape).Idx → EReal) : (⟨2, ![a, b]⟩ : Shape).Idx → EReal :=
  fun i => (∑ k : Fin n, x (ix2 (⟨(i 0).val, idx2_lt0 i⟩ : Fin a) k) * w (ix2 k (⟨(i 1).val, idx2_lt1 i⟩ : Fin b)))
    + β (ix1 (⟨(i 1).val, idx2_lt1 i⟩ : Fin b))

theorem affine_ix2 {a n b : ℕ} (x : (⟨2, ![a, n]⟩ : Shape).Idx → EReal) (w : (⟨2, ![n, b]⟩ : Shape).Idx → EReal)
    (β : (⟨1, ![b]⟩ : Shape).Idx → EReal) (p : Fin a) (q : Fin b) :
    affine x w β (ix2 p q) = (∑ k : Fin n, x (ix2 p k) * w (ix2 k q)) + β (ix1 q) := rfl

/-- The maximum with the value of the zero pattern, entry by entry. -/
def relu {s : Shape} (x : s.Idx → EReal) : s.Idx → EReal := fun i => max (x i) (Ideal.ofBits .f32 0x00000000#32)

/-- The entrywise sum. -/
def plus {s : Shape} (x y : s.Idx → EReal) : s.Idx → EReal := fun i => x i + y i

/-! ## A plain matrix product read at an entry -/

/-- Dimension numbers that contract the left operand's columns with the right operand's rows, with no batch axis,
    are the plain ones. -/
theorem eq_plain {a n b : ℕ} (D : DotDims ⟨2, ![a, n]⟩ ⟨2, ![n, b]⟩ ⟨2, ![a, b]⟩)
    (h1 : D.lhsContracting = [1]) (h2 : D.rhsContracting = [0]) (h3 : D.lhsNonContracting = [0])
    (h4 : D.rhsNonContracting = [1]) (h5 : D.lhsBatch = []) (h6 : D.rhsBatch = []) : D = DotDims.plain a n b := by
  cases D
  simp only at h1 h2 h3 h4 h5 h6
  subst h1 h2 h3 h4 h5 h6
  rfl

/-- The plain product's sum over its contraction index is the sum over the shared extent. -/
theorem plain_sum {a n b : ℕ} (x : (⟨2, ![a, n]⟩ : Shape).Idx → EReal) (w : (⟨2, ![n, b]⟩ : Shape).Idx → EReal)
    (p : Fin a) (q : Fin b) :
    (∑ k : (DotDims.plain a n b).contr.Idx,
        x ((DotDims.plain a n b).lhsIdx (ix2 p q) k) * w ((DotDims.plain a n b).rhsIdx (ix2 p q) k))
      = ∑ k : Fin n, x (ix2 p k) * w (ix2 k q) := by
  rw [← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 p q) ((contrEquiv1 (DotDims.plain a n b) n rfl rfl).symm k) = ix2 p k :=
    funext fun d => Fin.ext (by
      match d with
      | ⟨0, _⟩ => rfl
      | ⟨1, _⟩ => exact ((DotDims.plain a n b).lhsIdx_val_of_single rfl _ _).trans hk)
  have er : (DotDims.plain a n b).rhsIdx (ix2 p q) ((contrEquiv1 (DotDims.plain a n b) n rfl rfl).symm k) = ix2 k q :=
    funext fun d => Fin.ext (by
      match d with
      | ⟨0, _⟩ => exact ((DotDims.plain a n b).rhsIdx_val_of_single rfl _ _).trans hk
      | ⟨1, _⟩ => rfl)
  rw [el, er]

/-! ## The layer's two parts -/

/-- The matrix product: entry (p, q) is `∑ k, x (p, k) * w (k, q)`. -/
def mm {a n b : ℕ} (x : (⟨2, ![a, n]⟩ : Shape).Idx → EReal) (w : (⟨2, ![n, b]⟩ : Shape).Idx → EReal) :
    (⟨2, ![a, b]⟩ : Shape).Idx → EReal :=
  fun i => ∑ k : Fin n, x (ix2 (⟨(i 0).val, idx2_lt0 i⟩ : Fin a) k) * w (ix2 k (⟨(i 1).val, idx2_lt1 i⟩ : Fin b))

/-- A bias repeated down `a` rows: entry (p, q) is `β q`. -/
def rowb (a : ℕ) {b : ℕ} (β : (⟨1, ![b]⟩ : Shape).Idx → EReal) : (⟨2, ![a, b]⟩ : Shape).Idx → EReal :=
  fun i => β (ix1 (⟨(i 1).val, idx2_lt1 i⟩ : Fin b))

theorem affine_eq {a n b : ℕ} (x : (⟨2, ![a, n]⟩ : Shape).Idx → EReal) (w : (⟨2, ![n, b]⟩ : Shape).Idx → EReal)
    (β : (⟨1, ![b]⟩ : Shape).Idx → EReal) : affine x w β = plus (mm x w) (rowb a β) := rfl

/-! ## The forms a program writes them in, at the ideal values -/

/-- The vector unit's plain product into the zero accumulator is the matrix product. -/
theorem vmatmul_eq_mm {a n b : ℕ} {φ₁ φ₂ : FTy} (D : DotDims ⟨2, ![a, n]⟩ ⟨2, ![n, b]⟩ ⟨2, ![a, b]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (x : FVec Ideal ⟨2, ![a, n]⟩ φ₁) (w : FVec Ideal ⟨2, ![n, b]⟩ φ₂) :
    matmul D prec x w (constant ⟨2, ![a, b]⟩ .f32 0x00000000#32) = mm x w := by
  obtain rfl := eq_plain D h1 h2 h3 h4 h5 h6
  funext i
  obtain ⟨p, q, rfl⟩ : ∃ (p : Fin a) (q : Fin b), i = ix2 p q := ⟨i 0, i 1, eq_ix2 i⟩
  exact (Ideal.matmul_constant_zero_apply _ prec x w (ix2 p q)).trans (plain_sum x w p q)

/-- The host's plain product is the matrix product. -/
theorem hdot_eq_mm {a n b : ℕ} {φ₁ φ₂ : FTy} (D : DotDims ⟨2, ![a, n]⟩ ⟨2, ![n, b]⟩ ⟨2, ![a, b]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (x : FVec Ideal ⟨2, ![a, n]⟩ φ₁) (w : FVec Ideal ⟨2, ![n, b]⟩ φ₂) :
    Host.dotGeneral D prec x w = mm x w := by
  obtain rfl := eq_plain D h1 h2 h3 h4 h5 h6
  funext i
  obtain ⟨p, q, rfl⟩ : ∃ (p : Fin a) (q : Fin b), i = ix2 p q := ⟨i 0, i 1, eq_ix2 i⟩
  exact (Ideal.dotGeneral_apply _ prec .single x w (ix2 p q)).trans (plain_sum x w p q)

/-- A bias cast to one row and broadcast down the rows. -/
theorem rowcast_eq_rowb {a b : ℕ} (β : (⟨1, ![b]⟩ : Shape).Idx → EReal)
    (h₁ : (⟨1, ![b]⟩ : Shape).ShapeCasts ⟨2, ![1, b]⟩) (h₂ : (⟨2, ![1, b]⟩ : Shape).Broadcasts ⟨2, ![a, b]⟩) :
    broadcastTo ⟨2, ![a, b]⟩ (shapeCast ⟨2, ![1, b]⟩ β h₁) h₂ = rowb a β := by
  funext i
  obtain ⟨p, q, rfl⟩ : ∃ (p : Fin a) (q : Fin b), i = ix2 p q := ⟨i 0, i 1, eq_ix2 i⟩
  exact (broadcastTo_1b_ab_apply _ h₂ p q).trans (shapeCast_a_1a_apply β h₁ (0 : Fin 1) q)

/-- A bias broadcast to one row and then down the rows, as the host writes it. -/
theorem bcast2_eq_rowb {a b : ℕ} (β : (⟨1, ![b]⟩ : Shape).Idx → EReal)
    (h₁ : (⟨1, ![b]⟩ : Shape).BroadcastsInDim ⟨2, ![1, b]⟩ ![1])
    (h₂ : (⟨2, ![1, b]⟩ : Shape).BroadcastsInDim ⟨2, ![a, b]⟩ ![0, 1]) :
    broadcastInDim ⟨2, ![a, b]⟩ ![0, 1] h₂ (broadcastInDim ⟨2, ![1, b]⟩ ![1] h₁ β) = rowb a β := by
  funext i
  obtain ⟨p, q, rfl⟩ : ∃ (p : Fin a) (q : Fin b), i = ix2 p q := ⟨i 0, i 1, eq_ix2 i⟩
  refine (broadcastInDim_apply _ h₂ _ (ix2 p q) (ix2 (0 : Fin 1) q) fun ax => ?_).trans
    (broadcastInDim_apply _ h₁ β (ix2 (0 : Fin 1) q) (ix1 q) fun ax => ?_)
  · match ax with
    | ⟨0, _⟩ => rfl
    | ⟨1, _⟩ =>
      show q.val = if b = 1 then 0 else q.val
      split
      · have := q.isLt; omega
      · rfl
  · match ax with
    | ⟨0, _⟩ =>
      show q.val = if b = 1 then 0 else q.val
      split
      · have := q.isLt; omega
      · rfl

/-- A change of float format is the identity. -/
theorem truncf_id {s : Shape} {φ ψ : FTy} (x : FVec Ideal s φ) (h : ψ.bits < φ.bits) :
    (truncf ψ x h : s.Idx → EReal) = x := rfl

theorem addf_eq_plus {s : Shape} {φ : FTy} (x y : FVec Ideal s φ) : (addf x y : s.Idx → EReal) = plus x y := rfl

/-- The maximum with a splat of the zero pattern, as a kernel writes it. -/
theorem vrelu_eq {s : Shape} (x : FVec Ideal s .f32) :
    (maximumf x (broadcast s (Scalar.ofBits (F := Ideal) .f32 0x00000000#32)) : s.Idx → EReal) = relu x := rfl

/-- The maximum with the zero constant broadcast from a scalar, as the host writes it. -/
theorem hrelu_eq {s : Shape} (x : FVec Ideal s .f32) (h : (⟨0, ![]⟩ : Shape).BroadcastsInDim s ![]) :
    (maximumf x (broadcastInDim s ![] h (constant (F := Ideal) ⟨0, ![]⟩ .f32 0x00000000#32)) : s.Idx → EReal) = relu x := rfl

/-! ## Rows cut out of an array -/

/-- Rows `o, o + 1, …, o + a - 1` of an array of `A` rows. -/
def rowsFrom {α : Type} {A a n : ℕ} (o : ℕ) (h : o + a ≤ A) (X : (⟨2, ![A, n]⟩ : Shape).Idx → α) :
    (⟨2, ![a, n]⟩ : Shape).Idx → α :=
  fun y => X (ix2 (⟨o + (y 0).val, by have := idx2_lt0 y; omega⟩ : Fin A) (⟨(y 1).val, idx2_lt1 y⟩ : Fin n))

theorem rowsFrom_mm {A a n b : ℕ} (o : ℕ) (h : o + a ≤ A) (X : (⟨2, ![A, n]⟩ : Shape).Idx → EReal)
    (w : (⟨2, ![n, b]⟩ : Shape).Idx → EReal) : rowsFrom o h (mm X w) = mm (rowsFrom o h X) w := rfl

theorem rowsFrom_rowb {A a b : ℕ} (o : ℕ) (h : o + a ≤ A) (β : (⟨1, ![b]⟩ : Shape).Idx → EReal) :
    rowsFrom o h (rowb A β) = rowb a β := rfl

theorem rowsFrom_plus {A a n : ℕ} (o : ℕ) (h : o + a ≤ A) (X Y : (⟨2, ![A, n]⟩ : Shape).Idx → EReal) :
    rowsFrom o h (plus X Y) = plus (rowsFrom o h X) (rowsFrom o h Y) := rfl

theorem rowsFrom_relu {A a n : ℕ} (o : ℕ) (h : o + a ≤ A) (X : (⟨2, ![A, n]⟩ : Shape).Idx → EReal) :
    rowsFrom o h (relu X) = relu (rowsFrom o h X) := rfl

theorem rowsFrom_affine {A a n b : ℕ} (o : ℕ) (h : o + a ≤ A) (X : (⟨2, ![A, n]⟩ : Shape).Idx → EReal)
    (w : (⟨2, ![n, b]⟩ : Shape).Idx → EReal) (β : (⟨1, ![b]⟩ : Shape).Idx → EReal) :
    rowsFrom o h (affine X w β) = affine (rowsFrom o h X) w β := rfl

end Cert.LibDense

end
-- ==== Proof.EdgeSpec.lean ====
/-
  The edge update as one function of arrays over the extended reals.

  Every edge carries a feature row `ef` of 64 entries and the two rows `s`, `r` that its end points' projections
  put on it. The update is three dense layers with the maximum with zero after each: first `(s + r) + (ef · W_e + b_e)`,
  then `· W_1 + b_1`, then `· W_2 + b_2` down to 32 entries. Each step acts row by row, so the update of a run of
  rows is the update's rows: `rowsFrom_edge`.
-/
import proofs.«101715_j61838939128121_1_alg».proof.Proof.LibDense

noncomputable section

namespace Cert.EdgeSpec

open Idealize.ShloMosaic Idealize.ShloMosaic.ValueIdx Cert.LibDense

/-- The update of `a` edges: `relu (relu (relu ((s + r) + (ef · wek + bek)) · w1 + b1) · w2 + b2)`. -/
def edge {a : ℕ} (ef s r : (⟨2, ![a, 64]⟩ : Shape).Idx → EReal)
    (wek : (⟨2, ![64, 64]⟩ : Shape).Idx → EReal) (bek : (⟨1, ![64]⟩ : Shape).Idx → EReal)
    (w1 : (⟨2, ![64, 64]⟩ : Shape).Idx → EReal) (b1 : (⟨1, ![64]⟩ : Shape).Idx → EReal)
    (w2 : (⟨2, ![64, 32]⟩ : Shape).Idx → EReal) (b2 : (⟨1, ![32]⟩ : Shape).Idx → EReal) :
    (⟨2, ![a, 32]⟩ : Shape).Idx → EReal :=
  relu (affine (relu (affine (relu (plus (plus s r) (affine ef wek bek))) w1 b1)) w2 b2)

/-- The update acts row by row. -/
theorem rowsFrom_edge {A a : ℕ} (o : ℕ) (h : o + a ≤ A) (ef s r : (⟨2, ![A, 64]⟩ : Shape).Idx → EReal)
    (wek : (⟨2, ![64, 64]⟩ : Shape).Idx → EReal) (bek : (⟨1, ![64]⟩ : Shape).Idx → EReal)
    (w1 : (⟨2, ![64, 64]⟩ : Shape).Idx → EReal) (b1 : (⟨1, ![64]⟩ : Shape).Idx → EReal)
    (w2 : (⟨2, ![64, 32]⟩ : Shape).Idx → EReal) (b2 : (⟨1, ![32]⟩ : Shape).Idx → EReal) :
    rowsFrom o h (edge ef s r wek bek w1 b1 w2 b2)
      = edge (rowsFrom o h ef) (rowsFrom o h s) (rowsFrom o h r) wek bek w1 b1 w2 b2 := rfl

end Cert.EdgeSpec

end
-- ==== Proof.KPay.lean ====
/-
  What each kernel body computes from the blocks it loads, at the ideal values: the node kernel's two stores are
  dense layers of its block of node rows, and the edge kernel's store is the edge update of its block of edge rows.
-/
import proofs.«101715_j61838939128121_1_alg».proof.Proof.Gen.KernelIdeal.Skeleton
import proofs.«101715_j61838939128121_1_alg».proof.Proof.EdgeSpec

noncomputable section

namespace Cert.KernelIdeal.Pay

open Idealize.ShloMosaic Idealize.ShloMosaic.ValueIdx Cert.KernelIdeal Cert.KernelIdeal.Gen Cert.LibDense Cert.EdgeSpec

/-- The node kernel's first store: the block's rows times the first weight matrix plus its bias. -/
theorem pay2_eq (x : Vec Ideal S10000x64 .f32) (w : Vec Ideal S64x64 .bf16) (β : Vec Ideal S64 .f32) :
    k0_pay2 x w β = affine x w β := by
  unfold k0_pay2 k0_pay1
  dsimp only
  rw [shapeCast_self, truncf_id, vmatmul_eq_mm _ rfl rfl rfl rfl rfl rfl, rowcast_eq_rowb, addf_eq_plus]
  rfl

/-- The node kernel's second store: the same rows times the second weight matrix plus its bias. -/
theorem pay3_eq (x : Vec Ideal S10000x64 .f32) (w : Vec Ideal S64x64 .bf16) (β : Vec Ideal S64 .f32) :
    k0_pay3 x w β = affine x w β := by
  unfold k0_pay3 k0_pay1
  dsimp only
  rw [shapeCast_self, truncf_id, vmatmul_eq_mm _ rfl rfl rfl rfl rfl rfl, rowcast_eq_rowb, addf_eq_plus]
  rfl

/-- The edge kernel's store: the edge update of its block of edge rows and of the two blocks of gathered rows. -/
theorem pay1_eq (ef : Vec Ideal S5000x64 .f32) (wek : Vec Ideal S64x64 .bf16) (bek : Vec Ideal S64 .f32)
    (s r : Vec Ideal S5000x64 .f32) (w1 : Vec Ideal S64x64 .bf16) (b1 : Vec Ideal S64 .f32)
    (w2 : Vec Ideal S64x32 .bf16) (b2 : Vec Ideal S32 .f32) :
    k1_pay1 ef wek bek s r w1 b1 w2 b2 = edge ef s r wek bek w1 b1 w2 b2 := by
  unfold k1_pay1
  dsimp only
  simp only [shapeCast_self, truncf_id,
    vmatmul_eq_mm dot_S5000x64_S64x64_S5000x64_1_0_0_1_n_n rfl rfl rfl rfl rfl rfl,
    vmatmul_eq_mm dot_S5000x64_S64x32_S5000x32_1_0_0_1_n_n rfl rfl rfl rfl rfl rfl,
    rowcast_eq_rowb, addf_eq_plus, vrelu_eq]
  rfl

end Cert.KernelIdeal.Pay

end
-- ==== Proof.KReg0.lean ====
/-
  The node kernel's two result arrays after its 10 grid points, whatever the arrays it is entered with: each is a
  dense layer of the node features — the features times one weight matrix plus its bias.

  Point t loads rows 10000 t … 10000 t + 9999 of the features and both weight matrices and biases whole, and writes
  back the same rows of each result; a dense layer acts row by row, so what point t writes back is its run of rows
  of the layer of the whole table, and the 10 runs cover the table.
-/
import proofs.«101715_j61838939128121_1_alg».proof.Proof.Gen.KernelIdeal.Frame
import proofs.«101715_j61838939128121_1_alg».proof.Proof.KPay
import Idealize.ShloMosaic.Lib.Pipeline.Value

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay Cert.LibDense Cert.EdgeSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block row t, column block 0; every
    parameter window sits at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 10 := lt_of_lt_of_eq t.isLt N_0

theorem rows_le (t : Fin cfg0.N) : 10000 * t.val + 10000 ≤ 100000 := by have := t_lt t; omega

/-! ## The windows' blocks -/

theorem read_blk_0 (G : Vec Ideal S100000x64 .f32) (t : Fin cfg0.N) :
    (((cfg0.win 0).blk t).view.read (Elt Ideal) G : Vec Ideal S10000x64 .f32) = rowsFrom (10000 * t.val) (rows_le t) G := by
  funext y
  rw [View.read_apply]
  show G _ = G _
  refine congrArg G (funext fun a => Fin.ext ?_)
  have e := idx_facts t
  match a with
  | ⟨0, _⟩ => show win0_0.index t (0 : Fin 2) * 10000 + 1 * (y 0).val = 10000 * t.val + (y 0).val; omega
  | ⟨1, _⟩ => show win0_0.index t (1 : Fin 2) * 64 + 1 * (y 1).val = (y 1).val; omega

theorem read_blk_1 (G : Vec Ideal S64x64 .bf16) (t : Fin cfg0.N) :
    (((cfg0.win 1).blk t).view.read (Elt Ideal) G : Vec Ideal S64x64 .bf16) = G := by
  funext y
  rw [View.read_apply]
  show G _ = G _
  refine congrArg G (funext fun a => Fin.ext ?_)
  have e := idx_facts t
  match a with
  | ⟨0, _⟩ => show win0_1.index t (0 : Fin 2) * 64 + 1 * (y 0).val = (y 0).val; omega
  | ⟨1, _⟩ => show win0_1.index t (1 : Fin 2) * 64 + 1 * (y 1).val = (y 1).val; omega

theorem read_blk_2 (G : Vec Ideal S64 .f32) (t : Fin cfg0.N) :
    (((cfg0.win 2).blk t).view.read (Elt Ideal) G : Vec Ideal S64 .f32) = G := by
  funext y
  rw [View.read_apply]
  show G _ = G _
  refine congrArg G (funext fun a => Fin.ext ?_)
  have e := idx_facts t
  match a with
  | ⟨0, _⟩ => show win0_2.index t (0 : Fin 1) * 64 + 1 * (y 0).val = (y 0).val; omega

theorem read_blk_3 (G : Vec Ideal S64x64 .bf16) (t : Fin cfg0.N) :
    (((cfg0.win 3).blk t).view.read (Elt Ideal) G : Vec Ideal S64x64 .bf16) = G := by
  funext y
  rw [View.read_apply]
  show G _ = G _
  refine congrArg G (funext fun a => Fin.ext ?_)
  have e := idx_facts t
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem read_blk_4 (G : Vec Ideal S64 .f32) (t : Fin cfg0.N) :
    (((cfg0.win 4).blk t).view.read (Elt Ideal) G : Vec Ideal S64 .f32) = G := by
  funext y
  rw [View.read_apply]
  show G _ = G _
  refine congrArg G (funext fun a => Fin.ext ?_)
  have e := idx_facts t
  match a with
  | ⟨0, _⟩ => show win0_4.index t (0 : Fin 1) * 64 + 1 * (y 0).val = (y 0).val; omega

theorem read_blk_5 (G : Vec Ideal S100000x64 .f32) (t : Fin cfg0.N) :
    (((cfg0.win 5).blk t).view.read (Elt Ideal) G : Vec Ideal S10000x64 .f32) = rowsFrom (10000 * t.val) (rows_le t) G := by
  funext y
  rw [View.read_apply]
  show G _ = G _
  refine congrArg G (funext fun a => Fin.ext ?_)
  have e := idx_facts t
  match a with
  | ⟨0, _⟩ => show win0_5.index t (0 : Fin 2) * 10000 + 1 * (y 0).val = 10000 * t.val + (y 0).val; omega
  | ⟨1, _⟩ => show win0_5.index t (1 : Fin 2) * 64 + 1 * (y 1).val = (y 1).val; omega

theorem read_blk_6 (G : Vec Ideal S100000x64 .f32) (t : Fin cfg0.N) :
    (((cfg0.win 6).blk t).view.read (Elt Ideal) G : Vec Ideal S10000x64 .f32) = rowsFrom (10000 * t.val) (rows_le t) G := by
  funext y
  rw [View.read_apply]
  show G _ = G _
  refine congrArg G (funext fun a => Fin.ext ?_)
  have e := idx_facts t
  match a with
  | ⟨0, _⟩ => show win0_6.index t (0 : Fin 2) * 10000 + 1 * (y 0).val = 10000 * t.val + (y 0).val; omega
  | ⟨1, _⟩ => show win0_6.index t (1 : Fin 2) * 64 + 1 * (y 1).val = (y 1).val; omega

/-! ## What a point writes back, and the arrays after the last point -/

/-- The first projection of the node features the region is entered with. -/
abbrev projected_5 (c : Dev nD) : Vec Ideal S100000x64 .f32 :=
  affine (a := 100000) (V c main_arg0) (V c main_v0) (V c main_arg5)

/-- Point t writes back its run of rows of the first projection of the whole table. -/
theorem flushed_5 (c : Dev nD) (t : Fin cfg0.N) :
    (dat0 V c).flushed 5 t = ((cfg0.win 5).blk t).view.read (Elt Ideal) (projected_5 V c) := by
  show (cfg0.win 5).cut (grid0.coords t) ((dat0 V c).after 5 t) = _
  rw [after0_5]
  unfold out0_5
  rw [View.canon_unit_zero hz2]
  simp only [View.ld_unit_zero (S := S10000x64) hz2, View.ld_unit_zero (S := S64x64) hz2, View.ld_unit_zero (S := S64) hz1]
  rw [pay2_eq]
  unfold iblk0
  rw [read_blk_0, read_blk_1, read_blk_2, read_blk_5, ← rowsFrom_affine]
  rfl

theorem mem_blk_5 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v5_0).slice (win0_5.rect t)).set ↔ _
  rw [View.set_slice_whole, Rect.mem_set_unit]
  exact Iff.rfl

/-- Row r of the table lies in the block of point r / 10000. -/
theorem cover_5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  have ht : (i 0).val / 10000 < cfg0.N := by rw [hN]; omega
  refine ⟨⟨(i 0).val / 10000, ht⟩, flush0_5 _, ?_⟩
  rw [mem_blk_5]
  have e := idx_facts ⟨(i 0).val / 10000, ht⟩
  intro a
  match a with
  | ⟨0, _⟩ =>
    show win0_5.index ⟨(i 0).val / 10000, ht⟩ (0 : Fin 2) * 10000 ≤ (i 0).val ∧ (i 0).val < win0_5.index ⟨(i 0).val / 10000, ht⟩ (0 : Fin 2) * 10000 + 10000
    have e0 : win0_5.index ⟨(i 0).val / 10000, ht⟩ (0 : Fin 2) = (i 0).val / 10000 := e.2.2.2.2.2.2.2.2.1
    rw [e0]; omega
  | ⟨1, _⟩ =>
    show win0_5.index ⟨(i 0).val / 10000, ht⟩ (1 : Fin 2) * 64 ≤ (i 1).val ∧ (i 1).val < win0_5.index ⟨(i 0).val / 10000, ht⟩ (1 : Fin 2) * 64 + 64
    have e1 : win0_5.index ⟨(i 0).val / 10000, ht⟩ (1 : Fin 2) = 0 := e.2.2.2.2.2.2.2.2.2.1
    rw [e1]; omega

/-- After the last point the array holds the first projection of the node features the region was entered with. -/
theorem final_5 (c : Dev nD) : (dat0 V c).arrAt 5 cfg0.N = projected_5 V c :=
  (dat0 V c).arrAt_eq_of_cover 5 (projected_5 V c) (fun t _ => flushed_5 V c t) cover_5

/-- The second projection of the node features the region is entered with. -/
abbrev projected_6 (c : Dev nD) : Vec Ideal S100000x64 .f32 :=
  affine (a := 100000) (V c main_arg0) (V c main_v1) (V c main_arg7)

/-- Point t writes back its run of rows of the second projection of the whole table. -/
theorem flushed_6 (c : Dev nD) (t : Fin cfg0.N) :
    (dat0 V c).flushed 6 t = ((cfg0.win 6).blk t).view.read (Elt Ideal) (projected_6 V c) := by
  show (cfg0.win 6).cut (grid0.coords t) ((dat0 V c).after 6 t) = _
  rw [after0_6]
  unfold out0_6
  rw [View.canon_unit_zero hz2]
  simp only [View.ld_unit_zero (S := S10000x64) hz2, View.ld_unit_zero (S := S64x64) hz2, View.ld_unit_zero (S := S64) hz1]
  rw [pay3_eq]
  unfold iblk0
  rw [read_blk_0, read_blk_3, read_blk_4, read_blk_6, ← rowsFrom_affine]
  rfl

theorem mem_blk_6 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v5_1).slice (win0_6.rect t)).set ↔ _
  rw [View.set_slice_whole, Rect.mem_set_unit]
  exact Iff.rfl

/-- Row r of the table lies in the block of point r / 10000. -/
theorem cover_6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 10 := N_0
  have ht : (i 0).val / 10000 < cfg0.N := by rw [hN]; omega
  refine ⟨⟨(i 0).val / 10000, ht⟩, flush0_6 _, ?_⟩
  rw [mem_blk_6]
  have e := idx_facts ⟨(i 0).val / 10000, ht⟩
  intro a
  match a with
  | ⟨0, _⟩ =>
    show win0_6.index ⟨(i 0).val / 10000, ht⟩ (0 : Fin 2) * 10000 ≤ (i 0).val ∧ (i 0).val < win0_6.index ⟨(i 0).val / 10000, ht⟩ (0 : Fin 2) * 10000 + 10000
    have e0 : win0_6.index ⟨(i 0).val / 10000, ht⟩ (0 : Fin 2) = (i 0).val / 10000 := e.2.2.2.2.2.2.2.2.2.2.1
    rw [e0]; omega
  | ⟨1, _⟩ =>
    show win0_6.index ⟨(i 0).val / 10000, ht⟩ (1 : Fin 2) * 64 ≤ (i 1).val ∧ (i 1).val < win0_6.index ⟨(i 0).val / 10000, ht⟩ (1 : Fin 2) * 64 + 64
    have e1 : win0_6.index ⟨(i 0).val / 10000, ht⟩ (1 : Fin 2) = 0 := e.2.2.2.2.2.2.2.2.2.2.2
    rw [e1]; omega

/-- After the last point the array holds the second projection of the node features the region was entered with. -/
theorem final_6 (c : Dev nD) : (dat0 V c).arrAt 6 cfg0.N = projected_6 V c :=
  (dat0 V c).arrAt_eq_of_cover 6 (projected_6 V c) (fun t _ => flushed_6 V c t) cover_6

end Cert.KernelIdeal.Reg0

end
-- ==== Proof.KReg1.lean ====
/-
  The edge kernel's result array after its 250 grid points, whatever the arrays it is entered with: the edge update
  of the edge features, the two gathered arrays and the six parameter arrays as the region finds them.

  Point t loads rows 5000 t … 5000 t + 4999 of the three edge-sized inputs and every parameter array whole, and
  writes back rows 5000 t … 5000 t + 4999 of the result; the update acts row by row, so what point t writes back
  is its run of rows of the update of the whole arrays, and the 250 runs cover the array.
-/
import proofs.«101715_j61838939128121_1_alg».proof.Proof.Gen.KernelIdeal.Frame
import proofs.«101715_j61838939128121_1_alg».proof.Proof.KPay
import Idealize.ShloMosaic.Lib.Pipeline.Value

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay Cert.LibDense Cert.EdgeSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked windows sit at block row t, column block 0; every
    parameter window sits at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

theorem t_lt (t : Fin cfg1.N) : t.val < 250 := lt_of_lt_of_eq t.isLt N_1

theorem rows_le (t : Fin cfg1.N) : 5000 * t.val + 5000 ≤ 1250000 := by have := t_lt t; omega

/-! ## The windows' blocks -/

theorem read_blk_0 (G : Vec Ideal S1250000x64 .f32) (t : Fin cfg1.N) :
    (((cfg1.win 0).blk t).view.read (Elt Ideal) G : Vec Ideal S5000x64 .f32) = rowsFrom (5000 * t.val) (rows_le t) G := by
  funext y
  rw [View.read_apply]
  show G _ = G _
  refine congrArg G (funext fun a => Fin.ext ?_)
  have e := idx_facts t
  match a with
  | ⟨0, _⟩ => show win1_0.index t (0 : Fin 2) * 5000 + 1 * (y 0).val = 5000 * t.val + (y 0).val; omega
  | ⟨1, _⟩ => show win1_0.index t (1 : Fin 2) * 64 + 1 * (y 1).val = (y 1).val; omega

theorem read_blk_1 (G : Vec Ideal S1250000x64 .f32) (t : Fin cfg1.N) :
    (((cfg1.win 1).blk t).view.read (Elt Ideal) G : Vec Ideal S5000x64 .f32) = rowsFrom (5000 * t.val) (rows_le t) G := by
  funext y
  rw [View.read_apply]
  show G _ = G _
  refine congrArg G (funext fun a => Fin.ext ?_)
  have e := idx_facts t
  match a with
  | ⟨0, _⟩ => show win1_1.index t (0 : Fin 2) * 5000 + 1 * (y 0).val = 5000 * t.val + (y 0).val; omega
  | ⟨1, _⟩ => show win1_1.index t (1 : Fin 2) * 64 + 1 * (y 1).val = (y 1).val; omega

theorem read_blk_2 (G : Vec Ideal S1250000x64 .f32) (t : Fin cfg1.N) :
    (((cfg1.win 2).blk t).view.read (Elt Ideal) G : Vec Ideal S5000x64 .f32) = rowsFrom (5000 * t.val) (rows_le t) G := by
  funext y
  rw [View.read_apply]
  show G _ = G _
  refine congrArg G (funext fun a => Fin.ext ?_)
  have e := idx_facts t
  match a with
  | ⟨0, _⟩ => show win1_2.index t (0 : Fin 2) * 5000 + 1 * (y 0).val = 5000 * t.val + (y 0).val; omega
  | ⟨1, _⟩ => show win1_2.index t (1 : Fin 2) * 64 + 1 * (y 1).val = (y 1).val; omega

theorem read_blk_3 (G : Vec Ideal S64x64 .bf16) (t : Fin cfg1.N) :
    (((cfg1.win 3).blk t).view.read (Elt Ideal) G : Vec Ideal S64x64 .bf16) = G := by
  funext y
  rw [View.read_apply]
  show G _ = G _
  refine congrArg G (funext fun a => Fin.ext ?_)
  have e := idx_facts t
  match a with
  | ⟨0, _⟩ => show win1_3.index t (0 : Fin 2) * 64 + 1 * (y 0).val = (y 0).val; omega
  | ⟨1, _⟩ => show win1_3.index t (1 : Fin 2) * 64 + 1 * (y 1).val = (y 1).val; omega

theorem read_blk_4 (G : Vec Ideal S64 .f32) (t : Fin cfg1.N) :
    (((cfg1.win 4).blk t).view.read (Elt Ideal) G : Vec Ideal S64 .f32) = G := by
  funext y
  rw [View.read_apply]
  show G _ = G _
  refine congrArg G (funext fun a => Fin.ext ?_)
  have e := idx_facts t
  match a with
  | ⟨0, _⟩ => show win1_4.index t (0 : Fin 1) * 64 + 1 * (y 0).val = (y 0).val; omega

theorem read_blk_5 (G : Vec Ideal S64x64 .bf16) (t : Fin cfg1.N) :
    (((cfg1.win 5).blk t).view.read (Elt Ideal) G : Vec Ideal S64x64 .bf16) = G := by
  funext y
  rw [View.read_apply]
  show G _ = G _
  refine congrArg G (funext fun a => Fin.ext ?_)
  have e := idx_facts t
  match a with
  | ⟨0, _⟩ => show win1_5.index t (0 : Fin 2) * 64 + 1 * (y 0).val = (y 0).val; omega
  | ⟨1, _⟩ => show win1_5.index t (1 : Fin 2) * 64 + 1 * (y 1).val = (y 1).val; omega

theorem read_blk_6 (G : Vec Ideal S64 .f32) (t : Fin cfg1.N) :
    (((cfg1.win 6).blk t).view.read (Elt Ideal) G : Vec Ideal S64 .f32) = G := by
  funext y
  rw [View.read_apply]
  show G _ = G _
  refine congrArg G (funext fun a => Fin.ext ?_)
  have e := idx_facts t
  match a with
  | ⟨0, _⟩ => show win1_6.index t (0 : Fin 1) * 64 + 1 * (y 0).val = (y 0).val; omega

theorem read_blk_7 (G : Vec Ideal S64x32 .bf16) (t : Fin cfg1.N) :
    (((cfg1.win 7).blk t).view.read (Elt Ideal) G : Vec Ideal S64x32 .bf16) = G := by
  funext y
  rw [View.read_apply]
  show G _ = G _
  refine congrArg G (funext fun a => Fin.ext ?_)
  have e := idx_facts t
  match a with
  | ⟨0, _⟩ => show win1_7.index t (0 : Fin 2) * 64 + 1 * (y 0).val = (y 0).val; omega
  | ⟨1, _⟩ => show win1_7.index t (1 : Fin 2) * 32 + 1 * (y 1).val = (y 1).val; omega

theorem read_blk_8 (G : Vec Ideal S32 .f32) (t : Fin cfg1.N) :
    (((cfg1.win 8).blk t).view.read (Elt Ideal) G : Vec Ideal S32 .f32) = G := by
  funext y
  rw [View.read_apply]
  show G _ = G _
  refine congrArg G (funext fun a => Fin.ext ?_)
  have e := idx_facts t
  match a with
  | ⟨0, _⟩ => show win1_8.index t (0 : Fin 1) * 32 + 1 * (y 0).val = (y 0).val; omega

theorem read_blk_9 (G : Vec Ideal S1250000x32 .f32) (t : Fin cfg1.N) :
    (((cfg1.win 9).blk t).view.read (Elt Ideal) G : Vec Ideal S5000x32 .f32) = rowsFrom (5000 * t.val) (rows_le t) G := by
  funext y
  rw [View.read_apply]
  show G _ = G _
  refine congrArg G (funext fun a => Fin.ext ?_)
  have e := idx_facts t
  match a with
  | ⟨0, _⟩ => show win1_9.index t (0 : Fin 2) * 5000 + 1 * (y 0).val = 5000 * t.val + (y 0).val; omega
  | ⟨1, _⟩ => show win1_9.index t (1 : Fin 2) * 32 + 1 * (y 1).val = (y 1).val; omega

/-! ## What a point writes back, and the array after the last point -/

/-- The edge update of the arrays the region is entered with. -/
abbrev updated (c : Dev nD) : Vec Ideal S1250000x32 .f32 :=
  edge (a := 1250000) (V c main_arg1) (V c main_v12) (V c main_v19) (V c main_v2) (V c main_arg9) (V c main_v3)
    (V c main_arg11) (V c main_v4) (V c main_arg13)

/-- Point t writes back its run of rows of the update of the whole arrays. -/
theorem flushed_9 (c : Dev nD) (t : Fin cfg1.N) :
    (dat1 V c).flushed 9 t = ((cfg1.win 9).blk t).view.read (Elt Ideal) (updated V c) := by
  show (cfg1.win 9).cut (grid1.coords t) ((dat1 V c).after 9 t) = _
  rw [after1_9]
  unfold out1_9
  rw [View.canon_unit_zero hz2]
  simp only [View.ld_unit_zero (S := S5000x64) hz2, View.ld_unit_zero (S := S64x64) hz2, View.ld_unit_zero (S := S64) hz1,
    View.ld_unit_zero (S := S64x32) hz2, View.ld_unit_zero (S := S32) hz1]
  rw [pay1_eq]
  unfold iblk1
  rw [read_blk_0, read_blk_1, read_blk_2, read_blk_3, read_blk_4, read_blk_5, read_blk_6, read_blk_7, read_blk_8,
    read_blk_9, ← rowsFrom_edge]
  rfl

/-- An index of the result array is in point t's block iff each coordinate is in the block's range on its axis. -/
theorem mem_blk_9 (t : Fin cfg1.N) (i : S1250000x32.Idx) :
    i ∈ ((cfg1.win 9).blk t).view.set ↔ ∀ a : Fin 2, win1_9.index t a * S5000x32.size a ≤ (i a).val ∧ (i a).val < win1_9.index t a * S5000x32.size a + S5000x32.size a := by
  show i ∈ ((View.whole main_v20).slice (win1_9.rect t)).set ↔ _
  rw [View.set_slice_whole, Rect.mem_set_unit]
  exact Iff.rfl

/-- Row r of the result lies in the block of point r / 5000. -/
theorem cover_9 (i : S1250000x32.Idx) :
    ∃ t : Fin cfg1.N, (cfg1.win 9).flush t = true ∧ i ∈ ((cfg1.win 9).blk t).view.set := by
  have hi0 : (i 0).val < 1250000 := (i 0).isLt
  have hi1 : (i 1).val < 32 := (i 1).isLt
  have hN : cfg1.N = 250 := N_1
  have ht : (i 0).val / 5000 < cfg1.N := by rw [hN]; omega
  refine ⟨⟨(i 0).val / 5000, ht⟩, flush1_9 _, ?_⟩
  rw [mem_blk_9]
  have e := idx_facts ⟨(i 0).val / 5000, ht⟩
  have e90 : win1_9.index ⟨(i 0).val / 5000, ht⟩ (0 : Fin 2) = (i 0).val / 5000 := e.2.2.2.2.2.2.2.2.2.2.2.2.2.2.2.1
  have e91 : win1_9.index ⟨(i 0).val / 5000, ht⟩ (1 : Fin 2) = 0 := e.2.2.2.2.2.2.2.2.2.2.2.2.2.2.2.2
  intro a
  match a with
  | ⟨0, _⟩ =>
    show win1_9.index ⟨(i 0).val / 5000, ht⟩ (0 : Fin 2) * 5000 ≤ (i 0).val ∧ (i 0).val < win1_9.index ⟨(i 0).val / 5000, ht⟩ (0 : Fin 2) * 5000 + 5000
    rw [e90]; omega
  | ⟨1, _⟩ =>
    show win1_9.index ⟨(i 0).val / 5000, ht⟩ (1 : Fin 2) * 32 ≤ (i 1).val ∧ (i 1).val < win1_9.index ⟨(i 0).val / 5000, ht⟩ (1 : Fin 2) * 32 + 32
    rw [e91]; omega

/-- After the last point the result array holds the edge update of the arrays the region was entered with. -/
theorem final_9 (c : Dev nD) : (dat1 V c).arrAt 9 cfg1.N = updated V c :=
  (dat1 V c).arrAt_eq_of_cover 9 (updated V c) (fun t _ => flushed_9 V c t) cover_9

end Cert.KernelIdeal.Reg1

end
-- ==== Proof.KVal.lean ====
/-
  The kernel program's result as one function of the arguments, at the ideal values.

  Before the node kernel the host only changes the five weight matrices' format, which is the identity here; the
  node kernel leaves the two projections of the node features; the host then gathers, for every edge, the row of
  the first projection at its source and the row of the second at its destination (a negative index first moved
  up by the number of nodes); and the edge kernel leaves the edge update of the edge features and those two
  gathered arrays. Read back through the run's boundary contents, the result array is that composition.
-/
import proofs.«101715_j61838939128121_1_alg».proof.Proof.KReg0
import proofs.«101715_j61838939128121_1_alg».proof.Proof.KReg1
import Idealize.ShloMosaic.Lib.StableHlo.Run

set_option maxRecDepth 16384

noncomputable section

namespace Cert.KernelIdeal.KVal

open Idealize.ShloMosaic Idealize.ShloMosaic.TcCoe Idealize.ShloMosaic.ValueIdx Idealize.SL.Sem Idealize.ShloMosaic.StableHlo
open Cert.KernelIdeal Cert.KernelIdeal.Gen Cert.LibDense Cert.EdgeSpec

variable (m : (ℓ : Loc nD τ sig) → Buf (Elt Ideal) ℓ) (ρ : Dev nD → PrngReg)

/-- The start indices of a gather of node rows: a negative index moved up by the number of nodes, as a column. -/
def startCol (ix : IVec S1250000 32) : IVec S1250000x1 32 :=
  broadcastInDim S1250000x1 ![0] bcast_S1250000_S1250000x1_0 (select (cmpi .slt ix (broadcastInDim S1250000 ![] bcast_S_S1250000 (constantI S_ 32 0#32))) (addi ix (broadcastInDim S1250000 ![] bcast_S_S1250000 (constantI S_ 32 100000#32))) ix)

/-- The rows of a node table that the edges' end points name. -/
def nodeRows (tbl : FVec Ideal S100000x64 .f32) (ix : IVec S1250000 32) : FVec Ideal S1250000x64 .f32 :=
  Host.gather gather_S100000x64_S1250000x1_S1250000x64_1_0_n_n_0_1_164 tbl (startCol ix)

/-! ## The node kernel's entry: the arguments, the weight matrices in the narrower format -/

theorem V1_arg0 (c : Dev nD) : V1 m ρ c main_arg0 = m ((c : Thread nD τ).loc main_arg0) := by
  show StableHlo.after hostOps0 (W0 m ρ c) (Proc.devRef .tc main_arg0) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg7 (c : Dev nD) : V1 m ρ c main_arg7 = m ((c : Thread nD τ).loc main_arg7) := by
  show StableHlo.after hostOps0 (W0 m ρ c) (Proc.devRef .tc main_arg7) = _
  after_results
theorem V1_v0 (c : Dev nD) : (V1 m ρ c main_v0 : S64x64.Idx → EReal) = m ((c : Thread nD τ).loc main_arg4) := by
  show StableHlo.after hostOps0 (W0 m ρ c) (Proc.devRef .tc main_v0) = _
  after_results
  rfl
theorem V1_v1 (c : Dev nD) : (V1 m ρ c main_v1 : S64x64.Idx → EReal) = m ((c : Thread nD τ).loc main_arg6) := by
  show StableHlo.after hostOps0 (W0 m ρ c) (Proc.devRef .tc main_v1) = _
  after_results
  rfl

/-! ## The arguments and the converted weight matrices at the later boundaries -/

theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W1_arg11 (c : Dev nD) : W1 m ρ c (Proc.devRef .tc main_arg11) = m ((c : Thread nD τ).loc main_arg11) := by
  show StableHlo.after hostOps0 (W0 m ρ c) (Proc.devRef .tc main_arg11) = _
  after_results
theorem W1_arg13 (c : Dev nD) : W1 m ρ c (Proc.devRef .tc main_arg13) = m ((c : Thread nD τ).loc main_arg13) := by
  show StableHlo.after hostOps0 (W0 m ρ c) (Proc.devRef .tc main_arg13) = _
  after_results
theorem W1_v2 (c : Dev nD) : (W1 m ρ c (Proc.devRef .tc main_v2) : S64x64.Idx → EReal) = m ((c : Thread nD τ).loc main_arg8) := by
  show StableHlo.after hostOps0 (W0 m ρ c) (Proc.devRef .tc main_v2) = _
  after_results
  rfl
theorem W1_v3 (c : Dev nD) : (W1 m ρ c (Proc.devRef .tc main_v3) : S64x64.Idx → EReal) = m ((c : Thread nD τ).loc main_arg10) := by
  show StableHlo.after hostOps0 (W0 m ρ c) (Proc.devRef .tc main_v3) = _
  after_results
  rfl
theorem W1_v4 (c : Dev nD) : (W1 m ρ c (Proc.devRef .tc main_v4) : S64x32.Idx → EReal) = m ((c : Thread nD τ).loc main_arg12) := by
  show StableHlo.after hostOps0 (W0 m ρ c) (Proc.devRef .tc main_v4) = _
  after_results
  rfl

/-! ## After the node kernel: the two projections of the node features -/

theorem table0 (c : Dev nD) : W2 m ρ c (Proc.devRef .tc main_v5_0)
    = affine (a := 100000) (m ((c : Thread nD τ).loc main_arg0)) (m ((c : Thread nD τ).loc main_arg4)) (m ((c : Thread nD τ).loc main_arg5)) := by
  have h : W2 m ρ c (Proc.devRef .tc main_v5_0) = (dat0 (V1 m ρ) c).arrAt 5 cfg0.N := W2_arr m ρ c 5
  rw [h, Reg0.final_5]
  show affine (a := 100000) (V1 m ρ c main_arg0) (V1 m ρ c main_v0) (V1 m ρ c main_arg5) = _
  rw [V1_arg0, V1_v0, V1_arg5]

theorem table1 (c : Dev nD) : W2 m ρ c (Proc.devRef .tc main_v5_1)
    = affine (a := 100000) (m ((c : Thread nD τ).loc main_arg0)) (m ((c : Thread nD τ).loc main_arg6)) (m ((c : Thread nD τ).loc main_arg7)) := by
  have h : W2 m ρ c (Proc.devRef .tc main_v5_1) = (dat0 (V1 m ρ) c).arrAt 6 cfg0.N := W2_arr m ρ c 6
  rw [h, Reg0.final_6]
  show affine (a := 100000) (V1 m ρ c main_arg0) (V1 m ρ c main_v1) (V1 m ρ c main_arg7) = _
  rw [V1_arg0, V1_v1, V1_arg7]

/-! ## The edge kernel's entry -/

theorem V3_arg1 (c : Dev nD) : V3 m ρ c main_arg1 = m ((c : Thread nD τ).loc main_arg1) := by
  show StableHlo.after hostOps1 (W2 m ρ c) (Proc.devRef .tc main_arg1) = _
  after_results
  rw [W2_of_ne m ρ c main_arg1 (by decide)]
  exact W1_arg1 m ρ c
theorem V3_arg9 (c : Dev nD) : V3 m ρ c main_arg9 = m ((c : Thread nD τ).loc main_arg9) := by
  show StableHlo.after hostOps1 (W2 m ρ c) (Proc.devRef .tc main_arg9) = _
  after_results
  rw [W2_of_ne m ρ c main_arg9 (by decide)]
  exact W1_arg9 m ρ c
theorem V3_arg11 (c : Dev nD) : V3 m ρ c main_arg11 = m ((c : Thread nD τ).loc main_arg11) := by
  show StableHlo.after hostOps1 (W2 m ρ c) (Proc.devRef .tc main_arg11) = _
  after_results
  rw [W2_of_ne m ρ c main_arg11 (by decide)]
  exact W1_arg11 m ρ c
theorem V3_arg13 (c : Dev nD) : V3 m ρ c main_arg13 = m ((c : Thread nD τ).loc main_arg13) := by
  show StableHlo.after hostOps1 (W2 m ρ c) (Proc.devRef .tc main_arg13) = _
  after_results
  rw [W2_of_ne m ρ c main_arg13 (by decide)]
  exact W1_arg13 m ρ c
theorem V3_v2 (c : Dev nD) : (V3 m ρ c main_v2 : S64x64.Idx → EReal) = m ((c : Thread nD τ).loc main_arg8) := by
  show StableHlo.after hostOps1 (W2 m ρ c) (Proc.devRef .tc main_v2) = _
  after_results
  rw [W2_of_ne m ρ c main_v2 (by decide)]
  exact W1_v2 m ρ c
theorem V3_v3 (c : Dev nD) : (V3 m ρ c main_v3 : S64x64.Idx → EReal) = m ((c : Thread nD τ).loc main_arg10) := by
  show StableHlo.after hostOps1 (W2 m ρ c) (Proc.devRef .tc main_v3) = _
  after_results
  rw [W2_of_ne m ρ c main_v3 (by decide)]
  exact W1_v3 m ρ c
theorem V3_v4 (c : Dev nD) : (V3 m ρ c main_v4 : S64x32.Idx → EReal) = m ((c : Thread nD τ).loc main_arg12) := by
  show StableHlo.after hostOps1 (W2 m ρ c) (Proc.devRef .tc main_v4) = _
  after_results
  rw [W2_of_ne m ρ c main_v4 (by decide)]
  exact W1_v4 m ρ c

theorem V3_v12 (c : Dev nD) : V3 m ρ c main_v12
    = nodeRows (affine (a := 100000) (m ((c : Thread nD τ).loc main_arg0)) (m ((c : Thread nD τ).loc main_arg4)) (m ((c : Thread nD τ).loc main_arg5)))
        (m ((c : Thread nD τ).loc main_arg2)) := by
  show StableHlo.after hostOps1 (W2 m ρ c) (Proc.devRef .tc main_v12) = _
  after_results
  rw [W2_of_ne m ρ c main_arg2 (by decide), W1_arg2, table0]
  rfl

theorem V3_v19 (c : Dev nD) : V3 m ρ c main_v19
    = nodeRows (affine (a := 100000) (m ((c : Thread nD τ).loc main_arg0)) (m ((c : Thread nD τ).loc main_arg6)) (m ((c : Thread nD τ).loc main_arg7)))
        (m ((c : Thread nD τ).loc main_arg3)) := by
  show StableHlo.after hostOps1 (W2 m ρ c) (Proc.devRef .tc main_v19) = _
  after_results
  rw [W2_of_ne m ρ c main_arg3 (by decide), W1_arg3, table1]
  rfl

/-! ## The result -/

/-- The program's result: the edge update of the edge features and of the two projected node tables' rows at the
    edges' end points. -/
def result (c : Dev nD) : FVec Ideal S1250000x32 .f32 :=
  edge (a := 1250000) (m ((c : Thread nD τ).loc main_arg1))
    (nodeRows (affine (a := 100000) (m ((c : Thread nD τ).loc main_arg0)) (m ((c : Thread nD τ).loc main_arg4)) (m ((c : Thread nD τ).loc main_arg5))) (m ((c : Thread nD τ).loc main_arg2)))
    (nodeRows (affine (a := 100000) (m ((c : Thread nD τ).loc main_arg0)) (m ((c : Thread nD τ).loc main_arg6)) (m ((c : Thread nD τ).loc main_arg7))) (m ((c : Thread nD τ).loc main_arg3)))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

/-- The result array's buffer at the run's last boundary holds `result`. -/
theorem W4_result (c : Dev nD) : W4 m ρ c (Proc.devRef .tc main_v20) = result m c := by
  have h : W4 m ρ c (Proc.devRef .tc main_v20) = (dat1 (V3 m ρ) c).arrAt 9 cfg1.N := W4_arr m ρ c 9
  rw [h, Reg1.final_9]
  show edge (a := 1250000) (V3 m ρ c main_arg1) (V3 m ρ c main_v12) (V3 m ρ c main_v19) (V3 m ρ c main_v2) (V3 m ρ c main_arg9)
    (V3 m ρ c main_v3) (V3 m ρ c main_arg11) (V3 m ρ c main_v4) (V3 m ρ c main_arg13) = _
  rw [V3_arg1, V3_v12, V3_v19, V3_v2, V3_arg9, V3_v3, V3_arg11, V3_v4, V3_arg13]
  rfl

end Cert.KernelIdeal.KVal

end
-- ==== Proof.RefSpec.lean ====
/-
  The reference's result as the edge update: its node projections are dense layers of the node features, its edge
  projection joins the two gathered rows inside the first layer of the edge update, and the two remaining layers
  follow. The gathered rows stay what the program writes: a gather of the projected table at the start indices, a
  negative index first moved up by the number of nodes.
-/
import proofs.«101715_j61838939128121_1_alg».proof.Proof.Gen.ReferenceIdeal
import proofs.«101715_j61838939128121_1_alg».proof.Proof.EdgeSpec

noncomputable section

namespace Cert.ReferenceIdeal.RefSpec

open Idealize.ShloMosaic Idealize.ShloMosaic.ValueIdx Cert.ReferenceIdeal Cert.ReferenceIdeal.Gen Cert.LibDense Cert.EdgeSpec

/-- The start indices of a gather of node rows: a negative index moved up by the number of nodes, as a column. -/
def startCol (ix : IVec S1250000 32) : IVec S1250000x1 32 :=
  broadcastInDim S1250000x1 ![0] bcast_S1250000_S1250000x1_0 (select (cmpi .slt ix (broadcastInDim S1250000 ![] bcast_S_S1250000 (constantI S_ 32 0#32))) (addi ix (broadcastInDim S1250000 ![] bcast_S_S1250000 (constantI S_ 32 100000#32))) ix)

/-- The rows of a node table that the edges' end points name. -/
def nodeRows (tbl : FVec Ideal S100000x64 .f32) (ix : IVec S1250000 32) :
    FVec Ideal S1250000x64 .f32 :=
  Host.gather gather_S100000x64_S1250000x1_S1250000x64_1_0_n_n_0_1_164 tbl (startCol ix)

/-- The reference's result term is the edge update of the edge features and of the two projected node tables'
    rows at the edges' end points. -/
theorem result_eq (x0 : FVec Ideal S100000x64 .f32) (x1 : FVec Ideal S1250000x64 .f32)
    (x2 x3 : IVec S1250000 32)
    (x4 : FVec Ideal S64x64 .f32) (x5 : FVec Ideal S64 .f32)
    (x6 : FVec Ideal S64x64 .f32) (x7 : FVec Ideal S64 .f32)
    (x8 : FVec Ideal S64x64 .f32) (x9 : FVec Ideal S64 .f32)
    (x10 : FVec Ideal S64x64 .f32) (x11 : FVec Ideal S64 .f32)
    (x12 : FVec Ideal S64x32 .f32) (x13 : FVec Ideal S32 .f32) :
    (maximumf (addf (Host.dotGeneral dot_S1250000x64_S64x32_S1250000x32_1_0_0_1_n_n none (maximumf (addf (Host.dotGeneral dot_S1250000x64_S64x64_S1250000x64_1_0_0_1_n_n none (maximumf (addf (addf (Host.gather gather_S100000x64_S1250000x1_S1250000x64_1_0_n_n_0_1_164 (addf (Host.dotGeneral dot_S100000x64_S64x64_S100000x64_1_0_0_1_n_n none x0 x4) (broadcastInDim S100000x64 ![0, 1] bcast_S1x64_S100000x64_0_1 (broadcastInDim S1x64 ![1] bcast_S64_S1x64_1 x5))) (broadcastInDim S1250000x1 ![0] bcast_S1250000_S1250000x1_0 (select (cmpi .slt x2 (broadcastInDim S1250000 ![] bcast_S_S1250000 (constantI S_ 32 0#32))) (addi x2 (broadcastInDim S1250000 ![] bcast_S_S1250000 (constantI S_ 32 100000#32))) x2))) (Host.gather gather_S100000x64_S1250000x1_S1250000x64_1_0_n_n_0_1_164 (addf (Host.dotGeneral dot_S100000x64_S64x64_S100000x64_1_0_0_1_n_n none x0 x6) (broadcastInDim S100000x64 ![0, 1] bcast_S1x64_S100000x64_0_1 (broadcastInDim S1x64 ![1] bcast_S64_S1x64_1 x7))) (broadcastInDim S1250000x1 ![0] bcast_S1250000_S1250000x1_0 (select (cmpi .slt x3 (broadcastInDim S1250000 ![] bcast_S_S1250000 (constantI S_ 32 0#32))) (addi x3 (broadcastInDim S1250000 ![] bcast_S_S1250000 (constantI S_ 32 100000#32))) x3)))) (addf (Host.dotGeneral dot_S1250000x64_S64x64_S1250000x64_1_0_0_1_n_n none x1 x8) (broadcastInDim S1250000x64 ![0, 1] bcast_S1x64_S1250000x64_0_1 (broadcastInDim S1x64 ![1] bcast_S64_S1x64_1 x9)))) (broadcastInDim S1250000x64 ![] bcast_S_S1250000x64 (constant S_ .f32 0x00000000#32))) x10) (broadcastInDim S1250000x64 ![0, 1] bcast_S1x64_S1250000x64_0_1 (broadcastInDim S1x64 ![1] bcast_S64_S1x64_1 x11))) (broadcastInDim S1250000x64 ![] bcast_S_S1250000x64 (constant S_ .f32 0x00000000#32))) x12) (broadcastInDim S1250000x32 ![0, 1] bcast_S1x32_S1250000x32_0_1 (broadcastInDim S1x32 ![1] bcast_S32_S1x32_1 x13))) (broadcastInDim S1250000x32 ![] bcast_S_S1250000x32 (constant S_ .f32 0x00000000#32)) : FVec Ideal S1250000x32 .f32)
      = edge x1 (nodeRows (affine x0 x4 x5) x2) (nodeRows (affine x0 x6 x7) x3) x8 x9 x10 x11 x12 x13 := by
  simp only [hdot_eq_mm dot_S100000x64_S64x64_S100000x64_1_0_0_1_n_n rfl rfl rfl rfl rfl rfl,
    hdot_eq_mm dot_S1250000x64_S64x64_S1250000x64_1_0_0_1_n_n rfl rfl rfl rfl rfl rfl,
    hdot_eq_mm dot_S1250000x64_S64x32_S1250000x32_1_0_0_1_n_n rfl rfl rfl rfl rfl rfl,
    addf_eq_plus]
  repeat rw [bcast2_eq_rowb]
  repeat rw [hrelu_eq]
  rfl

end Cert.ReferenceIdeal.RefSpec

end
-- ==== Proof.lean ====
/-
  A graph network's edge update, computed by two kernels around a host gather, against the same update written in
  plain array operations; both read at the ideal values, where a float is an extended real and a change of float
  format is the identity.

  Every node's features are projected twice (features × W + b: two dense layers); every edge takes the first
  projection's row at its source, the second's at its destination, adds its own projected features and passes the
  sum through the maximum with zero and two further dense layers, each followed by the maximum with zero. The
  kernel program computes the projections block of rows by block of rows in its first kernel, gathers on the host,
  and runs the edge chain block of rows by block of rows in its second; each of these steps acts row by row, so
  the blocks are the rows of the same function of the whole arrays, and that function is the reference's term
  operation for operation: the matrix unit's product into a zero accumulator and the host's product are one sum,
  the two ways of repeating a bias down the rows read the same entry, and the two gathers are one function of equal
  tables and equal index vectors. No law of arithmetic is used, so the precondition is never opened.
-/
import proofs.«101715_j61838939128121_1_alg».proof.Defs
import proofs.«101715_j61838939128121_1_alg».proof.Proof.Gen.Kernel
import proofs.«101715_j61838939128121_1_alg».proof.Proof.Gen.Kernel.Skeleton
import proofs.«101715_j61838939128121_1_alg».proof.Proof.Gen.Kernel.Launch
import proofs.«101715_j61838939128121_1_alg».proof.Proof.Gen.Kernel.Points
import proofs.«101715_j61838939128121_1_alg».proof.Proof.Gen.Kernel.Frame
import proofs.«101715_j61838939128121_1_alg».proof.Proof.Gen.KernelIdeal
import proofs.«101715_j61838939128121_1_alg».proof.Proof.Gen.KernelIdeal.Skeleton
import proofs.«101715_j61838939128121_1_alg».proof.Proof.Gen.KernelIdeal.Launch
import proofs.«101715_j61838939128121_1_alg».proof.Proof.Gen.KernelIdeal.Points
import proofs.«101715_j61838939128121_1_alg».proof.Proof.Gen.KernelIdeal.Frame
import proofs.«101715_j61838939128121_1_alg».proof.Proof.Gen.ReferenceIdeal
import proofs.«101715_j61838939128121_1_alg».proof.Proof.Gen.Pre_finite_inputs
import proofs.«101715_j61838939128121_1_alg».proof.Proof.Gen.ReferenceIdeal.Run
import proofs.«101715_j61838939128121_1_alg».proof.Proof.KRun
import proofs.«101715_j61838939128121_1_alg».proof.Proof.KVal
import proofs.«101715_j61838939128121_1_alg».proof.Proof.RefSpec
import Idealize.ShloMosaic.Adequacy
import Idealize.ShloMosaic.Init

noncomputable section

namespace Cert.Proof

open Idealize.ShloMosaic Idealize.ShloMosaic.TcCoe Idealize.SL.Sem

/-- The word-level program runs to its end without a fault and leaves its arguments as they were. -/
theorem frame_kernel : Cert.frame_Kernel := fun m ρ _ => Cert.Kernel.Gen.frame m ρ

/-- So does the program read at the ideal values. -/
theorem frame_kernelIdeal : Cert.frame_KernelIdeal := fun m ρ _ => Cert.KernelIdeal.Gen.frame m ρ

/-- The reference is host operations only: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the edge update of the edge features and of the two projected node tables' rows at
    the edges' end points: the kernel program by its two kernels' blocks of rows, the reference by its term. -/
theorem algebraic : Cert.algebraic_KernelIdeal_ReferenceIdeal := by
  intro m ρ m' ρ' _ hagree
  refine ⟨fun c => Cert.KernelIdeal.KVal.result m c, ?_, ?_⟩
  · exact (θ_run Cert.KernelIdeal.defs _ _).mono
      (fun r h c => ⟨(h c).1.trans (Cert.KernelIdeal.KVal.W4_result m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefSpec.result_eq _ _ _ _ _ _ _ _ _ _ _ _ _ _).trans ?_
    obtain ⟨e0, e1, e2, e3, e4, e5, e6, e7, e8, e9, e10, e11, e12, e13⟩ := hagree c
    rw [e0, e1, e2, e3, e4, e5, e6, e7, e8, e9, e10, e11, e12, e13]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
